-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1200000 32) (main_arg2 : IVec S1200000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S5000x64 : Shape := ⟨2, ![5000, 64]⟩
abbrev S5000x1 : Shape := ⟨2, ![5000, 1]⟩
abbrev S1x64 : Shape := ⟨2, ![1, 64]⟩

abbrev nBuf : Space → Nat
  | .hbm => 79
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .f32⟩
  | .hbm, ⟨38, _⟩ => ⟨S100000x64, .f32⟩
  | .hbm, ⟨39, _⟩ => ⟨S1200000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S_, .f32⟩
  | .hbm, ⟨44, _⟩ => ⟨S1200000, .f32⟩
  | .hbm, ⟨45, _⟩ => ⟨S_, .f32⟩
  | .hbm, ⟨46, _⟩ => ⟨S100000, .f32⟩
  | .hbm, ⟨47, _⟩ => ⟨S1200000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S1200000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1200000, .i32⟩
  | .hbm, ⟨66, _⟩ => ⟨S1200000, .i1⟩
  | .hbm, ⟨67, _⟩ => ⟨S_, .i32⟩
  | .hbm, ⟨68, _⟩ => ⟨S1200000, .i32⟩
  | .hbm, ⟨69, _⟩ => ⟨S1200000, .i32⟩
  | .hbm, ⟨70, _⟩ => ⟨S1200000, .i32⟩
  | .hbm, ⟨71, _⟩ => ⟨S1200000x1, .i32⟩
  | .hbm, ⟨72, _⟩ => ⟨S1200000x64, .f32⟩
  | .hbm, ⟨73, _⟩ => ⟨S_, .f32⟩
  | .hbm, ⟨74, _⟩ => ⟨S100000x64, .f32⟩
  | .hbm, ⟨75, _⟩ => ⟨S1200000x1, .i32⟩
  | .hbm, ⟨76, _⟩ => ⟨S100000x64, .f32⟩
  | .hbm, ⟨77, _⟩ => ⟨S100000x1, .f32⟩
  | .hbm, ⟨78, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .f32⟩
  | .hbm, ⟨38, _⟩ => ⟨S100000x64, .f32⟩
  | .hbm, ⟨39, _⟩ => ⟨S1200000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S1200000, .f32⟩
  | .hbm, ⟨53, _⟩ => ⟨S_, .f32⟩
  | .hbm, ⟨54, _⟩ => ⟨S100000, .f32⟩
  | .hbm, ⟨55, _⟩ => ⟨S1200000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S1200000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1200000, .i32⟩
  | .hbm, ⟨74, _⟩ => ⟨S1200000, .i1⟩
  | .hbm, ⟨75, _⟩ => ⟨S_, .i32⟩
  | .hbm, ⟨76, _⟩ => ⟨S1200000, .i32⟩
  | .hbm, ⟨77, _⟩ => ⟨S1200000, .i32⟩
  | .hbm, ⟨78, _⟩ => ⟨S1200000, .i32⟩
  | .hbm, ⟨79, _⟩ => ⟨S1200000x1, .i32⟩
  | .hbm, ⟨80, _⟩ => ⟨S1200000x64, .f32⟩
  | .hbm, ⟨81, _⟩ => ⟨S_, .f32⟩
  | .hbm, ⟨82, _⟩ => ⟨S100000x64, .f32⟩
  | .hbm, ⟨83, _⟩ => ⟨S1200000x1, .i32⟩
  | .hbm, ⟨84, _⟩ => ⟨S100000x64, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Layer.lean ====
/-
  One dense stage of the two-layer graph convolution, as a function of whole arrays.

  A stage takes the aggregated features `agg` (rows × 64), one scale per row `nrm` (rows × 1), a weight matrix `W`
  (64 × 64) and a bias `b` (64), and returns, at row `r` and column `j`,

      Σ_k (agg[r,k] · nrm[r,0]) · W[k,j]  +  b[j],

  the first layer clamping that number below at zero. Nothing here needs finiteness: the rows are scaled BEFORE the
  contraction on both sides of the claim, so no factor is moved across a sum, and the statement holds on all of the
  extended reals.

  Also here: a product of an n × 64 by a 64 × 64 operand, contracted over the left operand's columns and the right
  operand's rows, read at row `p` and column `q` as a sum over the sixty-four positions.
-/
import Idealize.ShloMosaic.PureOps.Ideal.Laws
import Idealize.ShloMosaic.Lib.ValueIdx
import proofs.«138113_j20899310862685_1_alg».proof.Proof.LibContraction

noncomputable section

open scoped BigOperators

namespace Cert.Layer

open Idealize.ShloMosaic Idealize.ShloMosaic.ValueIdx

/-- The zero the first layer clamps at, kept as the word both programs print. -/
abbrev zero : EReal := Ideal.ofBits .f32 0x00000000#32

/-- One entry of a stage: a row of features `a`, its scale `s`, a column of weights `w`, a bias `β`. -/
def entry (a : Fin 64 → EReal) (s : EReal) (w : Fin 64 → EReal) (β : EReal) : EReal :=
  (∑ k : Fin 64, (a k * s) * w k) + β

/-- A stage over `n` rows, without the clamp. -/
def dense {n : Nat} (agg : (⟨2, ![n, 64]⟩ : Shape).Idx → EReal) (nrm : (⟨2, ![n, 1]⟩ : Shape).Idx → EReal)
    (W : (⟨2, ![64, 64]⟩ : Shape).Idx → EReal) (b : (⟨1, ![64]⟩ : Shape).Idx → EReal) :
    (⟨2, ![n, 64]⟩ : Shape).Idx → EReal := fun i =>
  entry (fun k => agg (ix2 (i 0) k)) (nrm (ix2 (i 0) 0)) (fun k => W (ix2 k (i 1))) (b (ix1 (i 1)))

/-- A stage over `n` rows, clamped below at zero. -/
def denseRelu {n : Nat} (agg : (⟨2, ![n, 64]⟩ : Shape).Idx → EReal) (nrm : (⟨2, ![n, 1]⟩ : Shape).Idx → EReal)
    (W : (⟨2, ![64, 64]⟩ : Shape).Idx → EReal) (b : (⟨1, ![64]⟩ : Shape).Idx → EReal) :
    (⟨2, ![n, 64]⟩ : Shape).Idx → EReal := fun i => max (dense agg nrm W b i) zero

theorem dense_apply {n : Nat} (agg : (⟨2, ![n, 64]⟩ : Shape).Idx → EReal) (nrm : (⟨2, ![n, 1]⟩ : Shape).Idx → EReal)
    (W : (⟨2, ![64, 64]⟩ : Shape).Idx → EReal) (b : (⟨1, ![64]⟩ : Shape).Idx → EReal) (p : Fin n) (q : Fin 64) :
    dense agg nrm W b (ix2 p q)
      = entry (fun k => agg (ix2 p k)) (nrm (ix2 p 0)) (fun k => W (ix2 k q)) (b (ix1 q)) := rfl

theorem denseRelu_apply {n : Nat} (agg : (⟨2, ![n, 64]⟩ : Shape).Idx → EReal) (nrm : (⟨2, ![n, 1]⟩ : Shape).Idx → EReal)
    (W : (⟨2, ![64, 64]⟩ : Shape).Idx → EReal) (b : (⟨1, ![64]⟩ : Shape).Idx → EReal) (p : Fin n) (q : Fin 64) :
    denseRelu agg nrm W b (ix2 p q)
      = max (entry (fun k => agg (ix2 p k)) (nrm (ix2 p 0)) (fun k => W (ix2 k q)) (b (ix1 q))) zero := rfl

/-- The contraction of an n × 64 operand with a 64 × 64 operand over the left's columns and the right's rows, at row
    `p` and column `q`: the sum over the sixty-four positions `k` of left[p,k] · right[k,q]. -/
theorem contraction_apply {n : Nat}
    (d : DotDims (⟨2, ![n, 64]⟩ : Shape) (⟨2, ![64, 64]⟩ : Shape) (⟨2, ![n, 64]⟩ : Shape))
    (hlc : d.lhsContracting = [1]) (hrc : d.rhsContracting = [0])
    (hln : d.lhsNonContracting = [0]) (hrn : d.rhsNonContracting = [1])
    (hlb : d.lhsBatch = []) (hrb : d.rhsBatch = [])
    (l : (⟨2, ![n, 64]⟩ : Shape).Idx → EReal) (r : (⟨2, ![64, 64]⟩ : Shape).Idx → EReal) (p : Fin n) (q : Fin 64) :
    ∑ k : d.contr.Idx, l (d.lhsIdx (ix2 p q) k) * r (d.rhsIdx (ix2 p q) k) = ∑ k : Fin 64, l (ix2 p k) * r (ix2 k q) := by
  rw [Cert.Lib.Contraction.sum_contr d hlc 64 rfl]
  refine Finset.sum_congr rfl fun k _ => ?_
  have el : d.lhsIdx (ix2 p q) ((Cert.Lib.Contraction.contrFin d hlc 64 rfl).symm k) = ix2 p k := by
    funext a; apply Fin.ext
    match a with
    | ⟨0, _⟩ => exact Cert.Lib.Contraction.lhs_free d hlb hln (ix2 p q) _ Nat.zero_lt_two
    | ⟨1, _⟩ => exact Cert.Lib.Contraction.lhs_contracted d hlc 64 rfl (ix2 p q) k
  have er : d.rhsIdx (ix2 p q) ((Cert.Lib.Contraction.contrFin d hlc 64 rfl).symm k) = ix2 k q := by
    funext a; apply Fin.ext
    match a with
    | ⟨0, _⟩ => exact Cert.Lib.Contraction.rhs_contracted d hlc hrc 64 rfl (ix2 p q) k
    | ⟨1, _⟩ => exact Cert.Lib.Contraction.rhs_free d hlb hrb hln hrn (ix2 p q) _ Nat.one_lt_two
  rw [el, er]

end Cert.Layer

end
-- ==== Proof.KernelBlock.lean ====
/-
  What one grid point's body stores, entry by entry, at the ideal instance.

  A body loads a 5000 × 64 block of aggregated features, the 5000 × 1 block of row scales, the 64 × 64 weights and the
  64 biases; it scales each row, multiplies by the weights on the matrix unit into a zero accumulator, and adds the bias
  broadcast down the rows (the first layer's body then clamps below at zero). Read at row `p` and column `q` of the block
  that is one entry of a dense stage (`Cert.Layer.entry`): the scaled rows are read through the row broadcast, the
  product into the zero accumulator is the plain sum over the sixty-four positions, the bias is read through its two
  re-layings (64 → 1 × 64 → 5000 × 64).
-/
import proofs.«138113_j20899310862685_1_alg».proof.Proof.Gen.KernelIdeal.Skeleton
import proofs.«138113_j20899310862685_1_alg».proof.Proof.Layer
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- A row's scale broadcast along the row: entry (p, k) of the broadcast is the scale of row p. -/
theorem rowScale_apply (x1 : FVec Ideal S5000x1 .f32) (p : Fin 5000) (k : Fin 64) :
    broadcastTo S5000x64 x1 broadcasts_S5000x1_S5000x64 (ix2 p k) = x1 (ix2 p 0) := by
  refine broadcastTo_apply x1 broadcasts_S5000x1_S5000x64 (ix2 p k) (ix2 p 0) fun a => ?_
  match a with
  | ⟨0, _⟩ => rfl
  | ⟨1, _⟩ => rfl

/-- The bias re-laid as one row and broadcast down the rows: entry (p, q) is the bias of column q. -/
theorem bias_apply (x3 : FVec Ideal S64 .f32) (p : Fin 5000) (q : Fin 64) :
    broadcastTo S5000x64 (shapeCast S1x64 x3 shapeCasts_S64_S1x64) broadcasts_S1x64_S5000x64 (ix2 p q) = x3 (ix1 q) := by
  rw [broadcastTo_apply (shapeCast S1x64 x3 shapeCasts_S64_S1x64) broadcasts_S1x64_S5000x64 (ix2 p q) (ix2 0 q) (fun a => by
    match a with
    | ⟨0, _⟩ => rfl
    | ⟨1, _⟩ => rfl)]
  refine shapeCast_apply x3 shapeCasts_S64_S1x64 (ix2 0 q) (ix1 q) ?_
  rw [Shape.rowMajor_val_one, Shape.rowMajor_val_two]
  show q.val = 0 * 64 + q.val
  omega

/-- The scaled block times the weights into the zero accumulator, plus the bias, at (p, q): one entry of a stage. -/
theorem affine_apply (x0 : FVec Ideal S5000x64 .f32) (x1 : FVec Ideal S5000x1 .f32) (x2 : FVec Ideal S64x64 .f32)
    (x3 : FVec Ideal S64 .f32) (p : Fin 5000) (q : Fin 64) :
    addf (matmul dot_S5000x64_S64x64_S5000x64_1_0_0_1_n_n none
        (mulf (shapeCast S5000x64 x0 shapeCasts_S5000x64_S5000x64)
          (broadcastTo S5000x64 (shapeCast S5000x1 x1 shapeCasts_S5000x1_S5000x1) broadcasts_S5000x1_S5000x64))
        x2 (constant S5000x64 .f32 0x00000000#32))
      (broadcastTo S5000x64 (shapeCast S1x64 x3 shapeCasts_S64_S1x64) broadcasts_S1x64_S5000x64) (ix2 p q)
    = Cert.Layer.entry (fun k => x0 (ix2 p k)) (x1 (ix2 p 0)) (fun k => x2 (ix2 k q)) (x3 (ix1 q)) := by
  rw [addf_apply, bias_apply, shapeCast_self, shapeCast_self]
  unfold Cert.Layer.entry
  refine congrArg (· + x3 (ix1 q)) ?_
  refine (Ideal.matmul_constant_zero_apply dot_S5000x64_S64x64_S5000x64_1_0_0_1_n_n none _ x2 (ix2 p q)).trans ?_
  refine (Cert.Layer.contraction_apply (n := 5000) dot_S5000x64_S64x64_S5000x64_1_0_0_1_n_n rfl rfl rfl rfl rfl rfl _ x2 p q).trans ?_
  refine Finset.sum_congr rfl fun k _ => ?_
  rw [mulf_apply, rowScale_apply]

/-- The first layer's stored value at (p, q): the stage's entry clamped below at zero. -/
theorem pay0_apply (x0 : Vec Ideal S5000x64 .f32) (x1 : Vec Ideal S5000x1 .f32) (x2 : Vec Ideal S64x64 .f32)
    (x3 : Vec Ideal S64 .f32) (p : Fin 5000) (q : Fin 64) :
    k0_pay1 (F := Ideal) x0 x1 x2 x3 (ix2 p q)
      = max (Cert.Layer.entry (fun k => x0 (ix2 p k)) (x1 (ix2 p 0)) (fun k => x2 (ix2 k q)) (x3 (ix1 q))) Cert.Layer.zero := by
  unfold k0_pay1
  rw [maximumf_apply]
  exact congrArg (max · Cert.Layer.zero) (affine_apply x0 x1 x2 x3 p q)

/-- The second layer's stored value at (p, q): the stage's entry. -/
theorem pay1_apply (x0 : Vec Ideal S5000x64 .f32) (x1 : Vec Ideal S5000x1 .f32) (x2 : Vec Ideal S64x64 .f32)
    (x3 : Vec Ideal S64 .f32) (p : Fin 5000) (q : Fin 64) :
    k1_pay1 (F := Ideal) x0 x1 x2 x3 (ix2 p q)
      = Cert.Layer.entry (fun k => x0 (ix2 p k)) (x1 (ix2 p 0)) (fun k => x2 (ix2 k q)) (x3 (ix1 q)) := by
  unfold k1_pay1
  exact affine_apply x0 x1 x2 x3 p q

/-- Block `tv` of the first stage over whole arrays. If a body's loaded blocks are rows `5000·tv …` of the features and of
    the scales, and the weights and biases whole, then what it stores at row `p`, column `q` is the clamped stage of the
    whole arrays at row `5000·tv + p`, column `q`. -/
theorem denseRelu_block (A : FVec Ideal S100000x64 .f32) (Nn : FVec Ideal S100000x1 .f32) (Wm : FVec Ideal S64x64 .f32)
    (bv : FVec Ideal S64 .f32) (x0 : FVec Ideal S5000x64 .f32) (x1 : FVec Ideal S5000x1 .f32) (x2 : FVec Ideal S64x64 .f32)
    (x3 : FVec Ideal S64 .f32) (tv : Nat)
    (h0 : ∀ (p : Fin 5000) (k : Fin 64) (r : Fin 100000), r.val = tv * 5000 + p.val → x0 (ix2 p k) = A (ix2 r k))
    (h1 : ∀ (p : Fin 5000) (r : Fin 100000), r.val = tv * 5000 + p.val → x1 (ix2 p 0) = Nn (ix2 r 0))
    (h2 : x2 = Wm) (h3 : x3 = bv) (p : Fin 5000) (q : Fin 64) (r : Fin 100000) (hr : r.val = tv * 5000 + p.val) :
    k0_pay1 (F := Ideal) x0 x1 x2 x3 (ix2 p q) = Cert.Layer.denseRelu A Nn Wm bv (ix2 r q) := by
  subst h2 h3
  rw [pay0_apply, Cert.Layer.denseRelu_apply]
  have e0 : (fun k => x0 (ix2 p k)) = fun k => A (ix2 r k) := funext fun k => h0 p k r hr
  rw [e0, h1 p r hr]

/-- The same for the second stage, which does not clamp. -/
theorem dense_block (A : FVec Ideal S100000x64 .f32) (Nn : FVec Ideal S100000x1 .f32) (Wm : FVec Ideal S64x64 .f32)
    (bv : FVec Ideal S64 .f32) (x0 : FVec Ideal S5000x64 .f32) (x1 : FVec Ideal S5000x1 .f32) (x2 : FVec Ideal S64x64 .f32)
    (x3 : FVec Ideal S64 .f32) (tv : Nat)
    (h0 : ∀ (p : Fin 5000) (k : Fin 64) (r : Fin 100000), r.val = tv * 5000 + p.val → x0 (ix2 p k) = A (ix2 r k))
    (h1 : ∀ (p : Fin 5000) (r : Fin 100000), r.val = tv * 5000 + p.val → x1 (ix2 p 0) = Nn (ix2 r 0))
    (h2 : x2 = Wm) (h3 : x3 = bv) (p : Fin 5000) (q : Fin 64) (r : Fin 100000) (hr : r.val = tv * 5000 + p.val) :
    k1_pay1 (F := Ideal) x0 x1 x2 x3 (ix2 p q) = Cert.Layer.dense A Nn Wm bv (ix2 r q) := by
  subst h2 h3
  rw [pay1_apply, Cert.Layer.dense_apply]
  have e0 : (fun k => x0 (ix2 p k)) = fun k => A (ix2 r k) := funext fun k => h0 p k r hr
  rw [e0, h1 p r hr]

end Cert.KernelIdeal.Block

end
-- ==== Proof.KernelArray.lean ====
/-
  What each of the two pipelines leaves in its output array, as one function of the arrays it finds.

  A pipeline runs its body at twenty grid points. At point `t` the feature window and the scale window hold rows
  `5000·t … 5000·t + 4999` of their arrays, the weight and bias windows hold their arrays whole, and the output window's
  block, written back after the body, is rows `5000·t …` of the output array. So what point `t` writes back is block `t`
  of the dense stage of the whole arrays (`Cert.Layer.denseRelu` for the first pipeline, `Cert.Layer.dense` for the
  second), and since the twenty blocks tile the 100000 rows (row `r` lies in block `r / 5000`) the output array ends
  holding that stage everywhere. All of it is stated at the contents `V` the pipeline finds on entry, whatever they are.
-/
import proofs.«138113_j20899310862685_1_alg».proof.Proof.Gen.KernelIdeal.Frame
import proofs.«138113_j20899310862685_1_alg».proof.Proof.KernelBlock
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first pipeline -/

/-- Its block indices at point `t`: the row windows move with the point, the weights and biases stay. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The feature block at point `t` is rows `5000·t …` of the feature array. -/
theorem feat0_apply (c : Dev nD) (t : Fin cfg0.N) (p : Fin 5000) (k : Fin 64) (r : Fin 100000)
    (hr : r.val = t.val * 5000 + p.val) :
    (iblk0 V c 0 t : FVec Ideal S5000x64 .f32) (ix2 p k) = (V c main_v25 : FVec Ideal S100000x64 .f32) (ix2 r k) := by
  obtain ⟨e0, e1, -⟩ := idx0 t
  unfold iblk0
  rw [View.read_apply]
  show V c main_v25 _ = V c main_v25 _
  refine congrArg _ ?_
  funext a; apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The scale block at point `t` is rows `5000·t …` of the scale array. -/
theorem scale0_apply (c : Dev nD) (t : Fin cfg0.N) (p : Fin 5000) (r : Fin 100000)
    (hr : r.val = t.val * 5000 + p.val) :
    (iblk0 V c 1 t : FVec Ideal S5000x1 .f32) (ix2 p 0) = (V c main_v26 : FVec Ideal S100000x1 .f32) (ix2 r 0) := by
  obtain ⟨-, -, e2, e3, -⟩ := idx0 t
  unfold iblk0
  rw [View.read_apply]
  show V c main_v26 _ = V c main_v26 _
  refine congrArg _ ?_
  funext a; apply Fin.ext
  match a with
  | ⟨0, _⟩ => show win0_1.index t (0 : Fin 2) * 5000 + 1 * p.val = r.val; rw [e2, hr]; omega
  | ⟨1, _⟩ => show win0_1.index t (1 : Fin 2) * 1 + 1 * 0 = 0; rw [e3]

/-- The weight window holds the weight array whole at every point. -/
theorem weight0_eq (c : Dev nD) (t : Fin cfg0.N) :
    (iblk0 V c 2 t : FVec Ideal S64x64 .f32) = (V c main_arg3 : FVec Ideal S64x64 .f32) := by
  obtain ⟨-, -, -, -, e4, e5, -⟩ := idx0 t
  funext y
  unfold iblk0
  rw [View.read_apply]
  show V c main_arg3 _ = V c main_arg3 _
  refine congrArg _ ?_
  funext a; apply Fin.ext
  match a with
  | ⟨0, _⟩ => show win0_2.index t (0 : Fin 2) * 64 + 1 * (y 0).val = (y 0).val; rw [e4]; omega
  | ⟨1, _⟩ => show win0_2.index t (1 : Fin 2) * 64 + 1 * (y 1).val = (y 1).val; rw [e5]; omega

/-- The bias window holds the bias array whole at every point. -/
theorem bias0_eq (c : Dev nD) (t : Fin cfg0.N) :
    (iblk0 V c 3 t : FVec Ideal S64 .f32) = (V c main_arg4 : FVec Ideal S64 .f32) := by
  obtain ⟨-, -, -, -, -, -, e6, -⟩ := idx0 t
  funext y
  unfold iblk0
  rw [View.read_apply]
  show V c main_arg4 _ = V c main_arg4 _
  refine congrArg _ ?_
  funext a; apply Fin.ext
  match a with
  | ⟨0, _⟩ => show win0_3.index t (0 : Fin 1) * 64 + 1 * (y 0).val = (y 0).val; rw [e6]; omega

/-- What point `t` writes back is block `t` of the clamped stage of the arrays the pipeline finds. -/
theorem flushed0 (c : Dev nD) (t : Fin cfg0.N) :
    (dat0 V c).flushed 4 t = ((cfg0.win 4).blk t).view.read (Elt Ideal)
      (Cert.Layer.denseRelu (V c main_v25) (V c main_v26) (V c main_arg3) (V c main_arg4)) := by
  have hN : cfg0.N = 20 := N_0
  have ht : t.val < 20 := hN ▸ t.isLt
  obtain ⟨-, -, -, -, -, -, -, e7, e8⟩ := idx0 t
  show (cfg0.win 4).cut (grid0.coords t) ((dat0 V c).after 4 t) = _
  rw [after0_4]
  unfold out0_4
  rw [View.canon_unit_zero hz2]
  simp only [View.ld_unit_zero (S := S5000x64) hz2, View.ld_unit_zero (S := S5000x1) hz2,
    View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  have hemb : ((cfg0.win 4).blk t).view.emb (ix2 p q)
      = ix2 (⟨t.val * 5000 + p.val, by have := p.isLt; omega⟩ : Fin 100000) q := by
    funext a; apply Fin.ext
    match a with
    | ⟨0, _⟩ => show win0_4.index t (0 : Fin 2) * 5000 + 1 * p.val = t.val * 5000 + p.val; rw [e7]; omega
    | ⟨1, _⟩ => show win0_4.index t (1 : Fin 2) * 64 + 1 * q.val = q.val; rw [e8]; omega
  rw [View.read_apply, hemb]
  exact Cert.KernelIdeal.Block.denseRelu_block (V c main_v25) (V c main_v26) (V c main_arg3) (V c main_arg4)
    (iblk0 V c 0 t) (iblk0 V c 1 t) (iblk0 V c 2 t) (iblk0 V c 3 t) t.val
    (fun p k r hr => feat0_apply V c t p k r hr) (fun p r hr => scale0_apply V c t p r hr)
    (weight0_eq V c t) (bias0_eq V c t) p q _ rfl

/-- The first pipeline's output array ends holding the clamped stage of the arrays it found: what each point writes back
    is its block of that stage, and every row `r` of the array lies in the block of point `r / 5000`. -/
theorem final0 (c : Dev nD) :
    (dat0 V c).arrAt 4 cfg0.N
      = Cert.Layer.denseRelu (V c main_v25) (V c main_v26) (V c main_arg3) (V c main_arg4) :=
  (dat0 V c).arrAt_eq_of_cover 4 _ (fun t _ => flushed0 V c t) fun i => by
    have hN : cfg0.N = 20 := N_0
    have h0 : (i 0).val < 100000 := (i 0).isLt
    have h1 : (i 1).val < 64 := (i 1).isLt
    have hlt : (i 0).val / 5000 < cfg0.N := by rw [hN]; omega
    obtain ⟨-, -, -, -, -, -, -, e7, e8⟩ := idx0 ⟨(i 0).val / 5000, hlt⟩
    refine ⟨⟨(i 0).val / 5000, hlt⟩, flush0_4 _, ?_⟩
    show i ∈ ((View.whole main_v27).slice (win0_4.rect ⟨(i 0).val / 5000, hlt⟩)).set
    rw [View.set_slice_whole, Rect.mem_set_unit]
    intro a
    match a with
    | ⟨0, _⟩ =>
      show win0_4.index ⟨(i 0).val / 5000, hlt⟩ (0 : Fin 2) * 5000 ≤ (i 0).val
        ∧ (i 0).val < win0_4.index ⟨(i 0).val / 5000, hlt⟩ (0 : Fin 2) * 5000 + 5000
      rw [e7]
      show (i 0).val / 5000 * 5000 ≤ (i 0).val ∧ (i 0).val < (i 0).val / 5000 * 5000 + 5000
      omega
    | ⟨1, _⟩ =>
      show win0_4.index ⟨(i 0).val / 5000, hlt⟩ (1 : Fin 2) * 64 ≤ (i 1).val
        ∧ (i 1).val < win0_4.index ⟨(i 0).val / 5000, hlt⟩ (1 : Fin 2) * 64 + 64
      rw [e8]
      omega

/-! ## The second pipeline -/

/-- Its block indices at point `t`: the row windows move with the point, the weights and biases stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The feature block at point `t` is rows `5000·t …` of the feature array. -/
theorem feat1_apply (c : Dev nD) (t : Fin cfg1.N) (p : Fin 5000) (k : Fin 64) (r : Fin 100000)
    (hr : r.val = t.val * 5000 + p.val) :
    (iblk1 V c 0 t : FVec Ideal S5000x64 .f32) (ix2 p k) = (V c main_v53 : FVec Ideal S100000x64 .f32) (ix2 r k) := by
  obtain ⟨e0, e1, -⟩ := idx1 t
  unfold iblk1
  rw [View.read_apply]
  show V c main_v53 _ = V c main_v53 _
  refine congrArg _ ?_
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The scale block at point `t` is rows `5000·t …` of the scale array. -/
theorem scale1_apply (c : Dev nD) (t : Fin cfg1.N) (p : Fin 5000) (r : Fin 100000)
    (hr : r.val = t.val * 5000 + p.val) :
    (iblk1 V c 1 t : FVec Ideal S5000x1 .f32) (ix2 p 0) = (V c main_v54 : FVec Ideal S100000x1 .f32) (ix2 r 0) := by
  obtain ⟨-, -, e2, e3, -⟩ := idx1 t
  unfold iblk1
  rw [View.read_apply]
  show V c main_v54 _ = V c main_v54 _
  refine congrArg _ ?_
  funext a; apply Fin.ext
  match a with
  | ⟨0, _⟩ => show win1_1.index t (0 : Fin 2) * 5000 + 1 * p.val = r.val; rw [e2, hr]; omega
  | ⟨1, _⟩ => show win1_1.index t (1 : Fin 2) * 1 + 1 * 0 = 0; rw [e3]

/-- The weight window holds the weight array whole at every point. -/
theorem weight1_eq (c : Dev nD) (t : Fin cfg1.N) :
    (iblk1 V c 2 t : FVec Ideal S64x64 .f32) = (V c main_arg5 : FVec Ideal S64x64 .f32) := by
  obtain ⟨-, -, -, -, e4, e5, -⟩ := idx1 t
  funext y
  unfold iblk1
  rw [View.read_apply]
  show V c main_arg5 _ = V c main_arg5 _
  refine congrArg _ ?_
  funext a; apply Fin.ext
  match a with
  | ⟨0, _⟩ => show win1_2.index t (0 : Fin 2) * 64 + 1 * (y 0).val = (y 0).val; rw [e4]; omega
  | ⟨1, _⟩ => show win1_2.index t (1 : Fin 2) * 64 + 1 * (y 1).val = (y 1).val; rw [e5]; omega

/-- The bias window holds the bias array whole at every point. -/
theorem bias1_eq (c : Dev nD) (t : Fin cfg1.N) :
    (iblk1 V c 3 t : FVec Ideal S64 .f32) = (V c main_arg6 : FVec Ideal S64 .f32) := by
  obtain ⟨-, -, -, -, -, -, e6, -⟩ := idx1 t
  funext y
  unfold iblk1
  rw [View.read_apply]
  show V c main_arg6 _ = V c main_arg6 _
  refine congrArg _ ?_
  funext a; apply Fin.ext
  match a with
  | ⟨0, _⟩ => show win1_3.index t (0 : Fin 1) * 64 + 1 * (y 0).val = (y 0).val; rw [e6]; omega

/-- What point `t` writes back is block `t` of the stage of the arrays the pipeline finds. -/
theorem flushed1 (c : Dev nD) (t : Fin cfg1.N) :
    (dat1 V c).flushed 4 t = ((cfg1.win 4).blk t).view.read (Elt Ideal)
      (Cert.Layer.dense (V c main_v53) (V c main_v54) (V c main_arg5) (V c main_arg6)) := by
  have hN : cfg1.N = 20 := N_1
  have ht : t.val < 20 := hN ▸ t.isLt
  obtain ⟨-, -, -, -, -, -, -, e7, e8⟩ := idx1 t
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2,
    View.ld_unit_zero (S := S64x64) hz2, View.ld_unit_zero (S := S64) hz1]
  funext j
  obtain ⟨p, q, rfl⟩ : ∃ (p : Fin 5000) (q : Fin 64), j = ix2 p q := ⟨j 0, j 1, eq_ix2 j⟩
  have hemb : ((cfg1.win 4).blk t).view.emb (ix2 p q)
      = ix2 (⟨t.val * 5000 + p.val, by have := p.isLt; omega⟩ : Fin 100000) q := by
    funext a; apply Fin.ext
    match a with
    | ⟨0, _⟩ => show win1_4.index t (0 : Fin 2) * 5000 + 1 * p.val = t.val * 5000 + p.val; rw [e7]; omega
    | ⟨1, _⟩ => show win1_4.index t (1 : Fin 2) * 64 + 1 * q.val = q.val; rw [e8]; omega
  rw [View.read_apply, hemb]
  exact Cert.KernelIdeal.Block.dense_block (V c main_v53) (V c main_v54) (V c main_arg5) (V c main_arg6)
    (iblk1 V c 0 t) (iblk1 V c 1 t) (iblk1 V c 2 t) (iblk1 V c 3 t) t.val
    (fun p k r hr => feat1_apply V c t p k r hr) (fun p r hr => scale1_apply V c t p r hr)
    (weight1_eq V c t) (bias1_eq V c t) p q _ rfl

/-- The second pipeline's output array ends holding the stage of the arrays it found: what each point writes back is
    its block of that stage, and every row `r` of the array lies in the block of point `r / 5000`. -/
theorem final1 (c : Dev nD) :
    (dat1 V c).arrAt 4 cfg1.N
      = Cert.Layer.dense (V c main_v53) (V c main_v54) (V c main_arg5) (V c main_arg6) :=
  (dat1 V c).arrAt_eq_of_cover 4 _ (fun t _ => flushed1 V c t) fun i => by
    have hN : cfg1.N = 20 := N_1
    have h0 : (i 0).val < 100000 := (i 0).isLt
    have h1 : (i 1).val < 64 := (i 1).isLt
    have hlt : (i 0).val / 5000 < cfg1.N := by rw [hN]; omega
    obtain ⟨-, -, -, -, -, -, -, e7, e8⟩ := idx1 ⟨(i 0).val / 5000, hlt⟩
    refine ⟨⟨(i 0).val / 5000, hlt⟩, flush1_4 _, ?_⟩
    show i ∈ ((View.whole main_v55).slice (win1_4.rect ⟨(i 0).val / 5000, hlt⟩)).set
    rw [View.set_slice_whole, Rect.mem_set_unit]
    intro a
    match a with
    | ⟨0, _⟩ =>
      show win1_4.index ⟨(i 0).val / 5000, hlt⟩ (0 : Fin 2) * 5000 ≤ (i 0).val
        ∧ (i 0).val < win1_4.index ⟨(i 0).val / 5000, hlt⟩ (0 : Fin 2) * 5000 + 5000
      rw [e7]
      show (i 0).val / 5000 * 5000 ≤ (i 0).val ∧ (i 0).val < (i 0).val / 5000 * 5000 + 5000
      omega
    | ⟨1, _⟩ =>
      show win1_4.index ⟨(i 0).val / 5000, hlt⟩ (1 : Fin 2) * 64 ≤ (i 1).val
        ∧ (i 1).val < win1_4.index ⟨(i 0).val / 5000, hlt⟩ (1 : Fin 2) * 64 + 64
      rw [e8]
      omega

end Cert.KernelIdeal.Arr

end
-- ==== Proof.HostFn.lean ====
/-
  What the host operations around the two pipelines compute, named once.

  `degScale idx` counts, for every node, the edges whose endpoint `idx` is that node (a scatter-add of ones into zeros),
  clamps the count below at one and takes the reciprocal square root: the node's degree normalisation.
  `degCol idx` is the same laid out as a column, one scale per row.
  `aggregate x src dst` scales row `v` of `x` by the normalisation of `v` as a source, gathers the scaled rows at the
  source of every edge (a negative index wrapped once by the node count, as the lowering of an index expression does),
  and scatter-adds them into zeros at the edges' destinations: the message passing of one layer.
  These are the host programs' own operations applied in their own order; nothing is evaluated here.
-/
import proofs.«138113_j20899310862685_1_alg».proof.Proof.Gen.KernelIdeal

noncomputable section

namespace Cert.KernelIdeal.HostFn

open Cert.KernelIdeal Cert.KernelIdeal.Facts₀ Cert.KernelIdeal.Facts Idealize.ShloMosaic

variable {F : FTy → Type} [FloatOps F]

/-- The degree normalisation of every node: `rsqrt (max (number of edges with this endpoint) 1)`. -/
def degScale (idx : (⟨S1200000, .i32⟩ : BufTy).Contents (Elt F)) : (⟨S100000, .f32⟩ : BufTy).Contents (Elt F) :=
  Host.rsqrt (maximumf
    (Host.scatterAdd scatter_S100000_S1200000x1_S1200000_n_0_0_1
      (broadcastInDim S100000 ![] bcast_S_S100000 (constant S_ .f32 0x00000000#32))
      (broadcastInDim S1200000x1 ![0] bcast_S1200000_S1200000x1_0 idx)
      (broadcastInDim S1200000 ![] bcast_S_S1200000 (constant S_ .f32 0x3F800000#32)))
    (broadcastInDim S100000 ![] bcast_S_S100000 (constant S_ .f32 0x3F800000#32)))

/-- The same as a column: one scale per row. -/
def degCol (idx : (⟨S1200000, .i32⟩ : BufTy).Contents (Elt F)) : (⟨S100000x1, .f32⟩ : BufTy).Contents (Elt F) :=
  broadcastInDim S100000x1 ![0] bcast_S100000_S100000x1_0 (degScale idx)

/-- One layer's message passing: rows scaled by their source normalisation, gathered along the edges, summed at the
    destinations. -/
def aggregate (x : (⟨S100000x64, .f32⟩ : BufTy).Contents (Elt F)) (src dst : (⟨S1200000, .i32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 dst)
    (Host.gather gather_S100000x64_S1200000x1_S1200000x64_1_0_n_n_0_1_164
      (mulf x (broadcastInDim S100000x64 ![0, 1] bcast_S100000x1_S100000x64_0_1 (degCol src)))
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 100000#32)))
          src)))

end Cert.KernelIdeal.HostFn

end
-- ==== Proof.KernelValue.lean ====
/-
  The idealized kernel's result, as one term of its arguments.

  The run of @main is a fold through four segments. The first host stretch leaves the aggregated features
  `aggregate x src dst` and the destination scales `degCol dst` in the buffers the first pipeline reads, and does not
  touch the arguments. The first pipeline leaves the clamped stage of those in its output array. The second host stretch
  reads that array and the index arguments and leaves `aggregate` of it and again `degCol dst`; the second pipeline leaves
  the unclamped stage of those in the result array. Composed:

      result = dense (aggregate (denseRelu (aggregate x src dst) (degCol dst) W1 b1) src dst) (degCol dst) W2 b2.
-/
import proofs.«138113_j20899310862685_1_alg».proof.Proof.Gen.KernelIdeal.Frame
import proofs.«138113_j20899310862685_1_alg».proof.Proof.KernelArray
import proofs.«138113_j20899310862685_1_alg».proof.Proof.KernelRun
import proofs.«138113_j20899310862685_1_alg».proof.Proof.HostFn
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Val

open Cert.KernelIdeal Cert.KernelIdeal.Gen Cert.KernelIdeal.HostFn

variable (m : (ℓ : Loc nD τ sig) → Buf (Elt Ideal) ℓ) (ρ : Dev nD → PrngReg)

/-! ## The arguments as launched -/

abbrev x (c : Dev nD) : (⟨S100000x64, .f32⟩ : BufTy).Contents (Elt Ideal) := m ((c.tc : Thread nD τ).loc main_arg0)
abbrev src (c : Dev nD) : (⟨S1200000, .i32⟩ : BufTy).Contents (Elt Ideal) := m ((c.tc : Thread nD τ).loc main_arg1)
abbrev dst (c : Dev nD) : (⟨S1200000, .i32⟩ : BufTy).Contents (Elt Ideal) := m ((c.tc : Thread nD τ).loc main_arg2)
abbrev w1 (c : Dev nD) : (⟨S64x64, .f32⟩ : BufTy).Contents (Elt Ideal) := m ((c.tc : Thread nD τ).loc main_arg3)
abbrev b1 (c : Dev nD) : (⟨S64, .f32⟩ : BufTy).Contents (Elt Ideal) := m ((c.tc : Thread nD τ).loc main_arg4)
abbrev w2 (c : Dev nD) : (⟨S64x64, .f32⟩ : BufTy).Contents (Elt Ideal) := m ((c.tc : Thread nD τ).loc main_arg5)
abbrev b2 (c : Dev nD) : (⟨S64, .f32⟩ : BufTy).Contents (Elt Ideal) := m ((c.tc : Thread nD τ).loc main_arg6)

/-! ## After the first host stretch -/

/-- The first pipeline's feature array: the first layer's aggregated features. -/
theorem entry0_feat (c : Dev nD) : V1 m ρ c main_v25 = aggregate (x m c) (src m c) (dst m c) := by
  show StableHlo.after hostOps0 (W0 m ρ c) (Proc.devRef .tc main_v25) = _
  unfold hostOps0 aggregate degCol degScale
  after_results_simp <;> rfl

/-- Its scale array: the destination normalisation as a column. -/
theorem entry0_scale (c : Dev nD) : V1 m ρ c main_v26 = degCol (dst m c) := by
  show StableHlo.after hostOps0 (W0 m ρ c) (Proc.devRef .tc main_v26) = _
  unfold hostOps0 degCol degScale
  after_results_simp <;> rfl

/-- No operation of the first stretch writes an argument. -/
theorem entry0_arg (c : Dev nD) (b : Ref sig .tc)
    (hb : b = main_arg1 ∨ b = main_arg2 ∨ b = main_arg3 ∨ b = main_arg4 ∨ b = main_arg5 ∨ b = main_arg6) :
    W1 m ρ c (Proc.devRef .tc b) = m ((c.tc : Thread nD τ).loc b) := by
  show StableHlo.after hostOps0 (W0 m ρ c) (Proc.devRef .tc b) = _
  unfold hostOps0
  rcases hb with rfl | rfl | rfl | rfl | rfl | rfl <;> (after_results_simp <;> rfl)

/-! ## After the first pipeline -/

/-- Its output array: the clamped stage of the first layer. -/
theorem mid_out (c : Dev nD) :
    W2 m ρ c (Proc.devRef .tc main_v27)
      = Cert.Layer.denseRelu (aggregate (x m c) (src m c) (dst m c)) (degCol (dst m c)) (w1 m c) (b1 m c) := by
  refine (W2_arr m ρ c 4).trans ((Cert.KernelIdeal.Arr.final0 (V1 m ρ) c).trans ?_)
  rw [entry0_feat m ρ c, entry0_scale m ρ c]
  rw [show V1 m ρ c main_arg3 = w1 m c from entry0_arg m ρ c main_arg3 (by simp),
    show V1 m ρ c main_arg4 = b1 m c from entry0_arg m ρ c main_arg4 (by simp)]

/-- The pipeline leaves every buffer that is not one of its five arrays as it found it: the arguments it does not
    read are still as launched. -/
theorem mid_arg (c : Dev nD) (b : Ref sig .tc)
    (hb : b = main_arg1 ∨ b = main_arg2 ∨ b = main_arg5 ∨ b = main_arg6) :
    W2 m ρ c (Proc.devRef .tc b) = m ((c.tc : Thread nD τ).loc b) := by
  rcases hb with rfl | rfl | rfl | rfl
  · exact (W2_of_ne m ρ c main_arg1 (by decide)).trans (entry0_arg m ρ c main_arg1 (by simp))
  · exact (W2_of_ne m ρ c main_arg2 (by decide)).trans (entry0_arg m ρ c main_arg2 (by simp))
  · exact (W2_of_ne m ρ c main_arg5 (by decide)).trans (entry0_arg m ρ c main_arg5 (by simp))
  · exact (W2_of_ne m ρ c main_arg6 (by decide)).trans (entry0_arg m ρ c main_arg6 (by simp))

/-! ## After the second host stretch -/

/-- The second pipeline's feature array: the second layer's aggregated features, of the first layer's output. -/
theorem entry1_feat (c : Dev nD) :
    V3 m ρ c main_v53
      = aggregate (Cert.Layer.denseRelu (aggregate (x m c) (src m c) (dst m c)) (degCol (dst m c)) (w1 m c) (b1 m c))
          (src m c) (dst m c) := by
  rw [← mid_out m ρ c, show src m c = W2 m ρ c (Proc.devRef .tc main_arg1) from (mid_arg m ρ c main_arg1 (by simp)).symm,
    show dst m c = W2 m ρ c (Proc.devRef .tc main_arg2) from (mid_arg m ρ c main_arg2 (by simp)).symm]
  show StableHlo.after hostOps1 (W2 m ρ c) (Proc.devRef .tc main_v53) = _
  unfold hostOps1 aggregate degCol degScale
  after_results_simp <;> rfl

/-- Its scale array: the destination normalisation as a column, computed again. -/
theorem entry1_scale (c : Dev nD) : V3 m ρ c main_v54 = degCol (dst m c) := by
  rw [show dst m c = W2 m ρ c (Proc.devRef .tc main_arg2) from (mid_arg m ρ c main_arg2 (by simp)).symm]
  show StableHlo.after hostOps1 (W2 m ρ c) (Proc.devRef .tc main_v54) = _
  unfold hostOps1 degCol degScale
  after_results_simp <;> rfl

/-- No operation of the second stretch writes the second layer's weights or biases. -/
theorem entry1_arg (c : Dev nD) (b : Ref sig .tc) (hb : b = main_arg5 ∨ b = main_arg6) :
    W3 m ρ c (Proc.devRef .tc b) = m ((c.tc : Thread nD τ).loc b) := by
  rcases hb with rfl | rfl
  · refine Eq.trans ?_ (mid_arg m ρ c main_arg5 (by simp))
    show StableHlo.after hostOps1 (W2 m ρ c) (Proc.devRef .tc main_arg5) = _
    unfold hostOps1
    after_results_simp <;> rfl
  · refine Eq.trans ?_ (mid_arg m ρ c main_arg6 (by simp))
    show StableHlo.after hostOps1 (W2 m ρ c) (Proc.devRef .tc main_arg6) = _
    unfold hostOps1
    after_results_simp <;> rfl

/-! ## After the second pipeline -/

/-- The result array after the run, as a term of the arguments. -/
abbrev result (c : Dev nD) : Buf (Elt Ideal) ((c.tc : Thread nD τ).loc main_v55) :=
  Cert.Layer.dense
    (aggregate (Cert.Layer.denseRelu (aggregate (x m c) (src m c) (dst m c)) (degCol (dst m c)) (w1 m c) (b1 m c))
      (src m c) (dst m c))
    (degCol (dst m c)) (w2 m c) (b2 m c)

theorem final (c : Dev nD) : W4 m ρ c (Proc.devRef .tc main_v55) = result m c := by
  refine (W4_arr m ρ c 4).trans ((Cert.KernelIdeal.Arr.final1 (V3 m ρ) c).trans ?_)
  rw [entry1_feat m ρ c, entry1_scale m ρ c]
  rw [show V3 m ρ c main_arg5 = w2 m c from entry1_arg m ρ c main_arg5 (by simp),
    show V3 m ρ c main_arg6 = b2 m c from entry1_arg m ρ c main_arg6 (by simp)]

/-- Every weakly fair execution of the idealized kernel terminates, nothing faulting, with the result array at `result`
    and the arguments as launched. -/
theorem run : θ_run defs (onTc (τ := τ) (main (F := Ideal))) ⟨m, fun _ => 0, ρ⟩ (fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final m ρ c), (h c).2⟩)
    (Cert.KernelIdeal.RunResult.run_result (F := Ideal) m ρ)

end Cert.KernelIdeal.Val

end
-- ==== Proof.RefLayer.lean ====
/-
  The reference's dense stage is the same function of whole arrays.

  The reference scales the aggregated features by the row scales broadcast along each row, contracts with the weights by
  one `dot_general` over the features' columns and the weights' rows, and adds the bias re-laid as a row and broadcast
  down the rows; after the first layer it takes the maximum with a zero splat. Index by index, for ANY four operands,
  that is `Cert.Layer.dense` (and `Cert.Layer.denseRelu` with the maximum): the host's contraction at the ideal values
  is the plain sum over the sixty-four positions, and the three broadcasts are read at an index.
-/
import proofs.«138113_j20899310862685_1_alg».proof.Proof.Gen.ReferenceIdeal.Run
import proofs.«138113_j20899310862685_1_alg».proof.Proof.Layer
import Idealize.ShloMosaic.Lib.Pipeline.Value

noncomputable section

open scoped BigOperators

namespace Cert.ReferenceIdeal.RefValue

open Cert.ReferenceIdeal Cert.ReferenceIdeal.Facts₀ Cert.ReferenceIdeal.Facts Idealize.ShloMosaic Idealize.ShloMosaic.ValueIdx

/-- A row's scale broadcast along the row: entry (p, k) of the broadcast is the scale of row p. -/
theorem rowScale_apply (nrm : FVec Ideal S100000x1 .f32) (p : Fin 100000) (k : Fin 64) :
    broadcastInDim S100000x64 ![0, 1] bcast_S100000x1_S100000x64_0_1 nrm (ix2 p k) = nrm (ix2 p 0) := by
  refine broadcastInDim_apply ![0, 1] bcast_S100000x1_S100000x64_0_1 nrm (ix2 p k) (ix2 p 0) fun a => ?_
  match a with
  | ⟨0, _⟩ => rfl
  | ⟨1, _⟩ => rfl

/-- The bias re-laid as one row and broadcast down the rows: entry (p, q) is the bias of column q. -/
theorem bias_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  rw [broadcastInDim_apply ![0, 1] bcast_S1x64_S100000x64_0_1 (broadcastInDim S1x64 ![1] bcast_S64_S1x64_1 b) (ix2 p q)
    (ix2 0 q) (fun a => by
      match a with
      | ⟨0, _⟩ => rfl
      | ⟨1, _⟩ => rfl)]
  refine broadcastInDim_apply ![1] bcast_S64_S1x64_1 b (ix2 0 q) (ix1 q) fun a => ?_
  match a with
  | ⟨0, _⟩ => rfl

/-- The zero splat at any index is the zero word's value. -/
theorem zeroSplat_apply (i : S100000x64.Idx) :
    broadcastInDim S100000x64 ![] bcast_S_S100000x64 (constant (F := Ideal) S_ .f32 0x00000000#32) i = Cert.Layer.zero :=
  broadcastInDim_apply ![] bcast_S_S100000x64 (constant (F := Ideal) S_ .f32 0x00000000#32) i ix0 fun a => a.elim0

/-- Scale, contract, add the bias: the stage without the clamp. -/
theorem dense_eq (agg : FVec Ideal S100000x64 .f32) (nrm : FVec Ideal S100000x1 .f32) (W : FVec Ideal S64x64 .f32)
    (b : FVec Ideal S64 .f32) :
    addf (Host.dotGeneral dot_S100000x64_S64x64_S100000x64_1_0_0_1_n_n none
        (mulf agg (broadcastInDim S100000x64 ![0, 1] bcast_S100000x1_S100000x64_0_1 nrm)) W)
      (broadcastInDim S100000x64 ![0, 1] bcast_S1x64_S100000x64_0_1 (broadcastInDim S1x64 ![1] bcast_S64_S1x64_1 b))
    = Cert.Layer.dense agg nrm W b := by
  funext i
  obtain ⟨p, q, rfl⟩ : ∃ (p : Fin 100000) (q : Fin 64), i = ix2 p q := ⟨i 0, i 1, eq_ix2 i⟩
  rw [addf_apply, bias_apply, Cert.Layer.dense_apply]
  unfold Cert.Layer.entry
  refine congrArg (· + b (ix1 q)) ?_
  simp only [Host.dotGeneral]
  refine (Ideal.dotGeneral_apply dot_S100000x64_S64x64_S100000x64_1_0_0_1_n_n none _ _ W (ix2 p q)).trans ?_
  refine (Cert.Layer.contraction_apply (n := 100000) dot_S100000x64_S64x64_S100000x64_1_0_0_1_n_n rfl rfl rfl rfl rfl rfl
    _ W p q).trans ?_
  refine Finset.sum_congr rfl fun k _ => ?_
  rw [mulf_apply, rowScale_apply]

/-- The same under the maximum with the zero splat: the clamped stage. -/
theorem denseRelu_eq (agg : FVec Ideal S100000x64 .f32) (nrm : FVec Ideal S100000x1 .f32) (W : FVec Ideal S64x64 .f32)
    (b : FVec Ideal S64 .f32) :
    maximumf (addf (Host.dotGeneral dot_S100000x64_S64x64_S100000x64_1_0_0_1_n_n none
        (mulf agg (broadcastInDim S100000x64 ![0, 1] bcast_S100000x1_S100000x64_0_1 nrm)) W)
      (broadcastInDim S100000x64 ![0, 1] bcast_S1x64_S100000x64_0_1 (broadcastInDim S1x64 ![1] bcast_S64_S1x64_1 b)))
      (broadcastInDim S100000x64 ![] bcast_S_S100000x64 (constant S_ .f32 0x00000000#32))
    = Cert.Layer.denseRelu agg nrm W b := by
  rw [dense_eq]
  funext i
  rw [maximumf_apply, zeroSplat_apply]
  rfl

/-- The maximum of a stage with the zero splat is the clamped stage (the form met once the stage inside has been named). -/
theorem relu_dense_eq (agg : FVec Ideal S100000x64 .f32) (nrm : FVec Ideal S100000x1 .f32) (W : FVec Ideal S64x64 .f32)
    (b : FVec Ideal S64 .f32) :
    maximumf (F := Ideal) (Cert.Layer.dense agg nrm W b : FVec Ideal S100000x64 .f32)
      (broadcastInDim S100000x64 ![] bcast_S_S100000x64 (constant (F := Ideal) S_ .f32 0x00000000#32))
    = Cert.Layer.denseRelu agg nrm W b := by
  funext i
  rw [maximumf_apply, zeroSplat_apply]
  rfl

end Cert.ReferenceIdeal.RefValue

end
-- ==== Proof.RefValue.lean ====
/-
  The reference's result is the same composition of the same functions.

  Its run ends with the result at one nested term of the arguments. Reading each `multiply / dot_general / add` group as
  the dense stage of its operands (and the `maximum` with the zero splat around the first as its clamp), the term is

      dense (aggregate (denseRelu (aggregate x src dst) (degCol dst) W1 b1) src dst) (degCol dst) W2 b2,

  where `aggregate` and `degCol` are the host operations both programs apply, in the same order, to the same operands:
  what is left of the term outside the two stages is, operation for operation, the text of those definitions, and each
  is recognised on its own (the two programs' records of a scatter and of a gather list the same axes).
-/
import proofs.«138113_j20899310862685_1_alg».proof.Proof.Gen.ReferenceIdeal.Run
import proofs.«138113_j20899310862685_1_alg».proof.Proof.RefLayer
import proofs.«138113_j20899310862685_1_alg».proof.Proof.HostFn

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.SL.Sem
open Cert.KernelIdeal.HostFn (aggregate degCol degScale)

/-- The reference's degree normalisation is `degScale`. -/
theorem degScale_eq (idx : (⟨S1200000, .i32⟩ : BufTy).Contents (Elt Ideal)) :
    Host.rsqrt (maximumf
      (Host.scatterAdd scatter_S100000_S1200000x1_S1200000_n_0_0_1
        (broadcastInDim S100000 ![] bcast_S_S100000 (constant (F := Ideal) S_ .f32 0x00000000#32))
        (broadcastInDim S1200000x1 ![0] bcast_S1200000_S1200000x1_0 idx)
        (broadcastInDim S1200000 ![] bcast_S_S1200000 (constant (F := Ideal) S_ .f32 0x3F800000#32)))
      (broadcastInDim S100000 ![] bcast_S_S100000 (constant (F := Ideal) S_ .f32 0x3F800000#32)))
    = degScale (F := Ideal) idx := by
  unfold degScale
  rfl

/-- Laid out as a column it is `degCol`. -/
theorem degCol_eq (idx : (⟨S1200000, .i32⟩ : BufTy).Contents (Elt Ideal)) :
    broadcastInDim S100000x1 ![0] bcast_S100000_S100000x1_0 (degScale (F := Ideal) idx) = degCol (F := Ideal) idx := by
  unfold degCol
  rfl

/-- The reference's message passing is `aggregate`. -/
theorem aggregate_eq (x : (⟨S100000x64, .f32⟩ : BufTy).Contents (Elt Ideal))
    (src dst : (⟨S1200000, .i32⟩ : BufTy).Contents (Elt Ideal)) :
    Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 dst)
      (Host.gather gather_S100000x64_S1200000x1_S1200000x64_1_0_n_n_0_1_164
        (mulf x (broadcastInDim S100000x64 ![0, 1] bcast_S100000x1_S100000x64_0_1 (degCol (F := Ideal) src)))
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32)))
            src)))
    = aggregate (F := Ideal) x src dst := by
  unfold aggregate
  rfl

variable (m : (ℓ : Loc nD τ sig) → Buf (Elt Ideal) ℓ)

/-- The run's result term is the two stages around the two aggregations. -/
theorem result_eq (c : Dev nD) :
    Cert.ReferenceIdeal.Value.res_main_v66 m c
      = Cert.Layer.dense
          (aggregate
            (Cert.Layer.denseRelu
              (aggregate (m ((c.tc : Thread nD τ).loc main_arg0)) (m ((c.tc : Thread nD τ).loc main_arg1))
                (m ((c.tc : Thread nD τ).loc main_arg2)))
              (degCol (m ((c.tc : Thread nD τ).loc main_arg2)))
              (m ((c.tc : Thread nD τ).loc main_arg3)) (m ((c.tc : Thread nD τ).loc main_arg4)))
            (m ((c.tc : Thread nD τ).loc main_arg1)) (m ((c.tc : Thread nD τ).loc main_arg2)))
          (degCol (m ((c.tc : Thread nD τ).loc main_arg2)))
          (m ((c.tc : Thread nD τ).loc main_arg5)) (m ((c.tc : Thread nD τ).loc main_arg6)) := by
  unfold Cert.ReferenceIdeal.Value.res_main_v66
  -- the two degree normalisations, then their column forms
  rw [degScale_eq (m ((c.tc : Thread nD τ).loc main_arg1)), degScale_eq (m ((c.tc : Thread nD τ).loc main_arg2))]
  rw [degCol_eq (m ((c.tc : Thread nD τ).loc main_arg1)), degCol_eq (m ((c.tc : Thread nD τ).loc main_arg2))]
  -- the first layer: its aggregation, its stage, its clamp
  rw [aggregate_eq (m ((c.tc : Thread nD τ).loc main_arg0)) (m ((c.tc : Thread nD τ).loc main_arg1))
    (m ((c.tc : Thread nD τ).loc main_arg2))]
  rw [dense_eq (aggregate (m ((c.tc : Thread nD τ).loc main_arg0)) (m ((c.tc : Thread nD τ).loc main_arg1))
      (m ((c.tc : Thread nD τ).loc main_arg2)))
    (degCol (m ((c.tc : Thread nD τ).loc main_arg2))) (m ((c.tc : Thread nD τ).loc main_arg3))
    (m ((c.tc : Thread nD τ).loc main_arg4))]
  rw [relu_dense_eq (aggregate (m ((c.tc : Thread nD τ).loc main_arg0)) (m ((c.tc : Thread nD τ).loc main_arg1))
      (m ((c.tc : Thread nD τ).loc main_arg2)))
    (degCol (m ((c.tc : Thread nD τ).loc main_arg2))) (m ((c.tc : Thread nD τ).loc main_arg3))
    (m ((c.tc : Thread nD τ).loc main_arg4))]
  -- the second layer: its aggregation, its stage
  rw [aggregate_eq
    (Cert.Layer.denseRelu
      (aggregate (m ((c.tc : Thread nD τ).loc main_arg0)) (m ((c.tc : Thread nD τ).loc main_arg1))
        (m ((c.tc : Thread nD τ).loc main_arg2)))
      (degCol (m ((c.tc : Thread nD τ).loc main_arg2))) (m ((c.tc : Thread nD τ).loc main_arg3))
      (m ((c.tc : Thread nD τ).loc main_arg4)))
    (m ((c.tc : Thread nD τ).loc main_arg1)) (m ((c.tc : Thread nD τ).loc main_arg2))]
  rw [dense_eq
    (aggregate
      (Cert.Layer.denseRelu
        (aggregate (m ((c.tc : Thread nD τ).loc main_arg0)) (m ((c.tc : Thread nD τ).loc main_arg1))
          (m ((c.tc : Thread nD τ).loc main_arg2)))
        (degCol (m ((c.tc : Thread nD τ).loc main_arg2))) (m ((c.tc : Thread nD τ).loc main_arg3))
        (m ((c.tc : Thread nD τ).loc main_arg4)))
      (m ((c.tc : Thread nD τ).loc main_arg1)) (m ((c.tc : Thread nD τ).loc main_arg2)))
    (degCol (m ((c.tc : Thread nD τ).loc main_arg2))) (m ((c.tc : Thread nD τ).loc main_arg5))
    (m ((c.tc : Thread nD τ).loc main_arg6))]

end Cert.ReferenceIdeal.RefValue

end
-- ==== Proof.lean ====
/-
  A two-layer graph convolution: the kernel against its plain reference, over the extended reals.

  Each layer normalises the node features by the nodes' degrees, sums them along the edges (a gather at the sources and a
  scatter-add at the destinations, done on the host by both programs in the same way), then applies a dense stage: scale
  every row by its destination normalisation, multiply by a 64 × 64 weight matrix, add a bias, and after the first layer
  clamp below at zero. The kernel does the dense stage in a pipeline over twenty blocks of 5000 rows, on the matrix unit
  into a zero accumulator; the reference does it with one multiplication, one contraction and one addition over all
  100000 rows. At the ideal instance both are the same function of whole arrays, entry by entry

      out[r, j] = Σ_k (agg[r, k] · nrm[r]) · W[k, j] + b[j]      (the first layer: the maximum of that and 0),

  because a product into a zero accumulator and the host's contraction are both the plain sum over the sixty-four
  positions, and a tiling of the rows changes nothing about a row. No factor is moved across a sum and nothing is
  cancelled, so the equality holds on all of the extended reals and the precondition is not used.

  The modules: `Layer` states the stage; `KernelBlock` reads a body's stored value at an entry; `KernelArray` takes the
  blocks to the whole output array of each pipeline; `HostFn` names the host operations; `KernelRun` and `KernelValue`
  carry the result through the run's four segments; `RefLayer` and `RefValue` read the reference's term as the same
  composition. Here: the five claims.
-/
import proofs.«138113_j20899310862685_1_alg».proof.Defs
import proofs.«138113_j20899310862685_1_alg».proof.Proof.Gen.Kernel
import proofs.«138113_j20899310862685_1_alg».proof.Proof.Gen.Kernel.Skeleton
import proofs.«138113_j20899310862685_1_alg».proof.Proof.Gen.Kernel.Launch
import proofs.«138113_j20899310862685_1_alg».proof.Proof.Gen.Kernel.Points
import proofs.«138113_j20899310862685_1_alg».proof.Proof.Gen.Kernel.Frame
import proofs.«138113_j20899310862685_1_alg».proof.Proof.Gen.KernelIdeal
import proofs.«138113_j20899310862685_1_alg».proof.Proof.Gen.KernelIdeal.Skeleton
import proofs.«138113_j20899310862685_1_alg».proof.Proof.Gen.KernelIdeal.Launch
import proofs.«138113_j20899310862685_1_alg».proof.Proof.Gen.KernelIdeal.Points
import proofs.«138113_j20899310862685_1_alg».proof.Proof.Gen.KernelIdeal.Frame
import proofs.«138113_j20899310862685_1_alg».proof.Proof.Gen.ReferenceIdeal
import proofs.«138113_j20899310862685_1_alg».proof.Proof.Gen.ReferenceIdeal.Run
import proofs.«138113_j20899310862685_1_alg».proof.Proof.Gen.Pre_finite_inputs
import proofs.«138113_j20899310862685_1_alg».proof.Proof.KernelValue
import proofs.«138113_j20899310862685_1_alg».proof.Proof.RefValue
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both programs end with the result array at the same term: the second
    layer's dense stage of the aggregation of the first layer's clamped dense stage. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.RefValue.result_eq m' c, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
